-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S512 .f32) (main_arg6 : FVec F S128x128 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S512x128 .f32) (main_arg3 : FVec F S512x128 .f32) (main_arg4 : FVec F S512 .f32) (main_arg5 : FVec F S512 .f32) (main_arg6 : FVec F S128x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x128 : Shape := ⟨2, ![128, 128]⟩
abbrev S128 : Shape := ⟨1, ![128]⟩
abbrev S128x512 : Shape := ⟨2, ![128, 512]⟩
abbrev S1x512 : Shape := ⟨2, ![1, 512]⟩
abbrev S2000x128 : Shape := ⟨2, ![2000, 128]⟩
abbrev S2000x512 : Shape := ⟨2, ![2000, 512]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 75
  | .vmem => 7
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S128x128, .f32⟩
  | .hbm, ⟨7, _⟩ => ⟨S128, .f32⟩
  | .hbm, ⟨8, _⟩ => ⟨S128x512, .f32⟩
  | .hbm, ⟨9, _⟩ => ⟨S128x128, .f32⟩
  | .hbm, ⟨10, _⟩ => ⟨S512, .f32⟩
  | .hbm, ⟨11, _⟩ => ⟨S1x512, .f32⟩
  | .hbm, ⟨12, _⟩ => ⟨S50000x128, .f32⟩
  | .hbm, ⟨13, _⟩ => ⟨S50000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S1x800000, .i32⟩
  | .hbm, ⟨18, _⟩ => ⟨S800000, .i32⟩
  | .hbm, ⟨19, _⟩ => ⟨S850000, .i32⟩
  | .hbm, ⟨20, _⟩ => ⟨S_, .f32⟩
  | .hbm, ⟨21, _⟩ => ⟨S850000, .f32⟩
  | .hbm, ⟨22, _⟩ => ⟨S_, .f32⟩
  | .hbm, ⟨23, _⟩ => ⟨S50000, .f32⟩
  | .hbm, ⟨24, _⟩ => ⟨S850000x1, .i32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x512, .f32⟩
  | .local _ .vmem, ⟨3, _⟩ => ⟨S1x512, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S512x128_S128x512_1_0 : S512x128.Transposes [1, 0] S128x512
  transposes_S128x128_S128x128_1_0 : S128x128.Transposes [1, 0] S128x128
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S2000x128_S128x512_S2000x512_1_0_0_1_n_n_wf : DotDims.WF S2000x128 S128x512 S2000x512 [1] [0] [0] [1] [] []
  dot_S2000x128_S128x128_S2000x128_1_0_0_1_n_n_wf : DotDims.WF S2000x128 S128x128 S2000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)

variable [Facts₀]

def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S512x128 : Shape := ⟨2, ![512, 128]⟩
abbrev S512 : Shape := ⟨1, ![512]⟩
abbrev S128x128 : Shape := ⟨2, ![128, 128]⟩
abbrev S128 : Shape := ⟨1, ![128]⟩
abbrev S128x512 : Shape := ⟨2, ![128, 512]⟩
abbrev S50000x512 : Shape := ⟨2, ![50000, 512]⟩
abbrev S1x512 : Shape := ⟨2, ![1, 512]⟩
abbrev S_ : Shape := ⟨0, ![]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S512x128, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S128x128, .f32⟩
  | .hbm, ⟨7, _⟩ => ⟨S128, .f32⟩
  | .hbm, ⟨8, _⟩ => ⟨S128x512, .f32⟩
  | .hbm, ⟨9, _⟩ => ⟨S50000x512, .f32⟩
  | .hbm, ⟨10, _⟩ => ⟨S1x512, .f32⟩
  | .hbm, ⟨11, _⟩ => ⟨S50000x512, .f32⟩
  | .hbm, ⟨12, _⟩ => ⟨S50000x512, .f32⟩
  | .hbm, ⟨13, _⟩ => ⟨S1x512, .f32⟩
  | .hbm, ⟨14, _⟩ => ⟨S50000x512, .f32⟩
  | .hbm, ⟨15, _⟩ => ⟨S50000x512, .f32⟩
  | .hbm, ⟨16, _⟩ => ⟨S50000x128, .f32⟩
  | .hbm, ⟨17, _⟩ => ⟨S50000x128, .f32⟩
  | .hbm, ⟨18, _⟩ => ⟨S50000x128, .f32⟩
  | .hbm, ⟨19, _⟩ => ⟨S50000x128, .f32⟩
  | .hbm, ⟨20, _⟩ => ⟨S50000x128, .f32⟩
  | .hbm, ⟨21, _⟩ => ⟨S50000x128, .f32⟩
  | .hbm, ⟨22, _⟩ => ⟨S_, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S_, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000, .i32⟩
  | .hbm, ⟨41, _⟩ => ⟨S1x800000, .i32⟩
  | .hbm, ⟨42, _⟩ => ⟨S800000, .i32⟩
  | .hbm, ⟨43, _⟩ => ⟨S850000, .i32⟩
  | .hbm, ⟨44, _⟩ => ⟨S1x800000, .i32⟩
  | .hbm, ⟨45, _⟩ => ⟨S800000, .i32⟩
  | .hbm, ⟨46, _⟩ => ⟨S850000, .i32⟩
  | .hbm, ⟨47, _⟩ => ⟨S_, .f32⟩
  | .hbm, ⟨48, _⟩ => ⟨S850000, .f32⟩
  | .hbm, ⟨49, _⟩ => ⟨S_, .f32⟩
  | .hbm, ⟨50, _⟩ => ⟨S50000, .f32⟩
  | .hbm, ⟨51, _⟩ => ⟨S850000x1, .i32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .i1⟩
  | .hbm, ⟨56, _⟩ => ⟨S50000, .f32⟩
  | .hbm, ⟨57, _⟩ => ⟨S_, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S850000, .f32⟩
  | .hbm, ⟨80, _⟩ => ⟨S128x128, .f32⟩
  | .hbm, ⟨81, _⟩ => ⟨S50000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x1, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_v42 : Ref sig .tc := ⟨.hbm, 60, rfl⟩
abbrev main_c : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_10 : Ref sig .tc := ⟨.hbm, 82, rfl⟩
abbrev main_v60 : Ref sig .tc := ⟨.hbm, 83, rfl⟩
abbrev main_v61 : Ref sig .tc := ⟨.hbm, 84, rfl⟩
abbrev main_c_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_12 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call1_cst : Ref sig .tc := ⟨.hbm, 101, rfl⟩
abbrev main_call1_v0 : Ref sig .tc := ⟨.hbm, 102, rfl⟩
abbrev main_v76 : Ref sig .tc := ⟨.hbm, 103, rfl⟩

abbrev nD : Nat := 1
abbrev τ : Topo := Topo.v7x

variable {F : FTy → Type} [FloatOps F]

class Facts₀ : Prop where
  transposes_S512x128_S128x512_1_0 : S512x128.Transposes [1, 0] S128x512
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  slices_S50000x512_S50000x128_0_0 : S50000x512.Slices ![0, 0] S50000x128
  slices_S50000x512_S50000x128_0_128 : S50000x512.Slices ![0, 128] S50000x128
  slices_S50000x512_S50000x128_0_256 : S50000x512.Slices ![0, 256] S50000x128
  slices_S50000x512_S50000x128_0_384 : S50000x512.Slices ![0, 384] S50000x128
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x512_S50000x512_1_0_0_1_n_n_wf : DotDims.WF S50000x128 S128x512 S50000x512 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def dot_S50000x128_S128x512_S50000x512_1_0_0_1_n_n : DotDims S50000x128 S128x512 S50000x512 where
  lhsContracting := [1]
  rhsContracting := [0]
  lhsNonContracting := [0]
  rhsNonContracting := [1]
  lhsBatch := []
  rhsBatch := []
  wf := dot_S50000x128_S128x512_S50000x512_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  What both programs compute before the graph stage: one LSTM step from the zero state followed by a linear map.

  For a node with feature row `x` (128 numbers), input weights `W` (512 rows of 128) and a bias `b` (512 numbers),
  the gate pre-activations are `g j = ∑ k, x k · W j k + b j`. Columns 0–127 are the input gate, 256–383 the cell
  candidate, 384–511 the output gate (128–255, the forget gate, multiplies the zero cell state and is never read).
  The new cell is `σ(g k) · tanh(g (256 + k))`, the hidden state `σ(g (384 + k)) · tanh(cell k)`, with
  `σ z = 1 / (1 + e^(−z))` on the extended reals. The transformed feature `q` of the node is
  `∑ k, hidden k · G q k` for the 128 × 128 matrix `G` of the graph layer.
-/
import Idealize.ShloMosaic.Lib.ValueIdx
import Idealize.ShloMosaic.Lib.Pipeline.Value
import Idealize.ShloMosaic.PureOps.Ideal.Laws

noncomputable section

namespace Cert.Spec

open Idealize.ShloMosaic Idealize.ShloMosaic.ValueIdx

/-- The single-precision pattern of 1.0 denotes the number one. -/
theorem ofBits_one_f32 : Ideal.ofBits .f32 0x3F800000#32 = 1 := by
  simp [Ideal.ofBits, Ideal.ieee, -EReal.coe_mul]; norm_num

/-- Gate pre-activation `j`: the feature row against row `j` of the input weights, plus the bias. -/
def gate (x : Fin 128 → EReal) (W : Fin 512 → Fin 128 → EReal) (b : Fin 512 → EReal) (j : Fin 512) : EReal :=
  ∑ k : Fin 128, x k * W j k + b j

/-- Column `k` of the input gate, of the cell candidate, of the output gate. -/
abbrev colI (k : Fin 128) : Fin 512 := ⟨k.val, by have := k.isLt; omega⟩
abbrev colG (k : Fin 128) : Fin 512 := ⟨256 + k.val, by have := k.isLt; omega⟩
abbrev colO (k : Fin 128) : Fin 512 := ⟨384 + k.val, by have := k.isLt; omega⟩

/-- Hidden state `k` after one step from the zero state. -/
def hidden (g : Fin 512 → EReal) (k : Fin 128) : EReal :=
  Ideal.logistic (g (colO k)) * Ideal.tanh (Ideal.logistic (g (colI k)) * Ideal.tanh (g (colG k)))

/-- Transformed feature `q` of a node. -/
def feat (x : Fin 128 → EReal) (W : Fin 512 → Fin 128 → EReal) (b : Fin 512 → EReal) (G : Fin 128 → Fin 128 → EReal)
    (q : Fin 128) : EReal :=
  ∑ k : Fin 128, hidden (gate x W b) k * G q k

/-- The transformed features of all 50000 nodes as one array: entry (r, q) is `feat` of row `r` of the features,
    the weights as given (512 × 128 and 128 × 128, not transposed) and the sum of the two bias vectors. -/
def feats (x : FVec Ideal ⟨2, ![50000, 128]⟩ .f32) (wih : FVec Ideal ⟨2, ![512, 128]⟩ .f32)
    (bih bhh : FVec Ideal ⟨1, ![512]⟩ .f32) (wg : FVec Ideal ⟨2, ![128, 128]⟩ .f32) : FVec Ideal ⟨2, ![50000, 128]⟩ .f32 :=
  fun i => feat (fun k => x (ix2 (i 0) k)) (fun j k => wih (ix2 j k)) (fun j => bih (ix1 j) + bhh (ix1 j))
    (fun q k => wg (ix2 q k)) (i 1)

theorem feats_apply (x : FVec Ideal ⟨2, ![50000, 128]⟩ .f32) (wih : FVec Ideal ⟨2, ![512, 128]⟩ .f32)
    (bih bhh : FVec Ideal ⟨1, ![512]⟩ .f32) (wg : FVec Ideal ⟨2, ![128, 128]⟩ .f32) (r : Fin 50000) (q : Fin 128) :
    feats x wih bih bhh wg (ix2 r q)
      = feat (fun k => x (ix2 r k)) (fun j k => wih (ix2 j k)) (fun j => bih (ix1 j) + bhh (ix1 j)) (fun q k => wg (ix2 q k)) q :=
  rfl

/-- `feat` depends on its data only through their entries. -/
theorem feat_congr {x x' : Fin 128 → EReal} {W W' : Fin 512 → Fin 128 → EReal} {b b' : Fin 512 → EReal}
    {G G' : Fin 128 → Fin 128 → EReal} (hx : ∀ k, x k = x' k) (hW : ∀ j k, W j k = W' j k) (hb : ∀ j, b j = b' j)
    (hG : ∀ q k, G q k = G' q k) (q : Fin 128) : feat x W b G q = feat x' W' b' G' q := by
  rw [show x = x' from funext hx, show W = W' from funext fun j => funext (hW j), show b = b' from funext hb,
    show G = G' from funext fun q => funext (hG q)]

/-- A slice of 128 columns starting at column `o` of a matrix with 512 columns, read at (p, k). -/
theorem slice_cols_apply {a : ℕ} {α : Type} (o : ℕ) (v : (⟨2, ![a, 512]⟩ : Shape).Idx → α)
    (h : (⟨2, ![a, 512]⟩ : Shape).Slices ![0, o] ⟨2, ![a, 128]⟩) (p : Fin a) (k : Fin 128) (ho : o + k.val < 512) :
    extractStridedSlice ⟨2, ![a, 128]⟩ ![0, o] v h (ix2 p k) = v (ix2 p ⟨o + k.val, ho⟩) :=
  extractStridedSlice_apply ![0, o] v h (ix2 p k) (ix2 p ⟨o + k.val, ho⟩) (fun ax => match ax with
    | ⟨0, _⟩ => by show p.val = 0 + p.val; omega
    | ⟨1, _⟩ => rfl)

end Cert.Spec

end
-- ==== Proof.LibDense.lean ====
/-
  One dense layer with ReLU, row by row.

  For a row `h` of `K` numbers, a `K × N` weight matrix `W` and a bias row `b`, the layer's entry `j` is
  `max (∑ k, h k · W k j + b j) 0` on the extended reals. A rows-by-columns matrix product (no batch axis, the left
  operand contracted on its columns, the right on its rows) read at (r, j) is `∑ k, lhs (r, k) · rhs (k, j)`, whether
  it is accumulated into a zero array or has no accumulator; adding a bias row laid along every row and taking the
  maximum with zero then gives the layer of row `r`. Nothing here depends on the number of rows, so a product over
  a tile of rows and a product over all rows read the same way.
-/
import Idealize.ShloMosaic.Lib.ValueIdx
import Idealize.ShloMosaic.Lib.ValueLayout
import Idealize.ShloMosaic.Lib.KernelVsHost
import Idealize.ShloMosaic.Lib.Pipeline.Value
import Idealize.ShloMosaic.PureOps.Ideal.Laws

noncomputable section

namespace Cert.LibDense

open Idealize.ShloMosaic Idealize.ShloMosaic.ValueIdx

/-- One dense layer followed by ReLU on one row: entry `j` is `max (∑ k, h k · W k j + b j) 0`. -/
def dense {K N : ℕ} (h : Fin K → EReal) (W : Fin K → Fin N → EReal) (b : Fin N → EReal) (j : Fin N) : EReal :=
  max (∑ k : Fin K, h k * W k j + b j) 0

/-- The layer depends on its input row only through the row's entries. -/
theorem dense_congr {K N : ℕ} {h h' : Fin K → EReal} (e : ∀ k, h k = h' k) (W : Fin K → Fin N → EReal) (b : Fin N → EReal)
    (j : Fin N) : dense h W b j = dense h' W b j := by
  rw [show h = h' from funext e]

section Plain

variable {M K N : ℕ}

/-- The rows-by-columns product's left operand index keeps the result's row. -/
theorem plain_lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from fun h => nomatch h),
    dif_pos (show (0 : Fin (⟨2, ![M, K]⟩ : Shape).rank) ∈ (DotDims.plain M K N).lhsNonContracting from List.mem_singleton.mpr rfl)]
  rfl

/-- Its column is the contraction position. -/
theorem plain_lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction position. -/
theorem plain_rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Its column is the result's column. -/
theorem plain_rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from fun h => nomatch h),
    dif_pos (show (1 : Fin (⟨2, ![K, N]⟩ : Shape).rank) ∈ (DotDims.plain M K N).rhsNonContracting from List.mem_singleton.mpr rfl)]
  rfl

/-- The sum over the product's contraction index, re-indexed by the contracted coordinate `k : Fin K`, with the
    operands read at (r, k) and (k, j). -/
theorem plain_sum {φ₁ φ₂ : FTy} (lhs : FVec Ideal ⟨2, ![M, K]⟩ φ₁) (rhs : FVec Ideal ⟨2, ![K, N]⟩ φ₂) (r : Fin M) (j : Fin N) :
    (∑ q : (DotDims.plain M K N).contr.Idx,
        lhs ((DotDims.plain M K N).lhsIdx (ix2 r j) q) * rhs ((DotDims.plain M K N).rhsIdx (ix2 r j) q))
      = ∑ k : Fin K, lhs (ix2 r k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact plain_lhs_row _ _
      | ⟨1, _⟩ => exact (plain_lhs_col _ _).trans hk)
  have er : (DotDims.plain M K N).rhsIdx (ix2 r j) ((contrEquiv1 (DotDims.plain M K N) K rfl rfl).symm k) = ix2 k j :=
    funext fun a => Fin.ext (by
      match a with
      | ⟨0, _⟩ => exact (plain_rhs_row _ _).trans hk
      | ⟨1, _⟩ => exact plain_rhs_col _ _)
  rw [el, er]

/-- A rows-by-columns product accumulated into a zero array, read at (r, j). -/
theorem matmul_plain_zero_apply {φ₁ φ₂ : FTy} (prec : Option ContractPrecision) (lhs : FVec Ideal ⟨2, ![M, K]⟩ φ₁)
    (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) := by
  rw [Ideal.matmul_constant_zero_apply]
  exact plain_sum lhs rhs r j

/-- The host's rows-by-columns product, read at (r, j). -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j) = ∑ k : Fin K, lhs (ix2 r k) * rhs (ix2 k j) := by
  rw [Ideal.dotGeneral_apply]
  exact plain_sum lhs rhs r j

end Plain

/-! ## The layer as a kernel and as a host program spell it -/

section Layers

variable {M K N : ℕ} {φ₁ φ₂ : FTy}

/-- A kernel's layer — the product into a zero accumulator, a one-row bias laid along every row, the maximum with a
    splat zero — read at (r, j), given the input's row `r`. The product's dimension numbers may be any record that
    IS the rows-by-columns one. -/
theorem kernel_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (r : Fin M) (j : Fin N)
    (row : Fin K → EReal) (hrow : ∀ k, h (ix2 r k) = row k) :
    maximumf (addf (matmul d prec h W (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 r j)
      = dense row (fun k j => W (ix2 k j)) (fun j => b (ix2 (0 : Fin 1) j)) j := by
  subst hd
  show max (FloatOps.matmul (DotDims.plain M K N) prec h W (constant ⟨2, ![M, N]⟩ .f32 0x00000000#32) (ix2 r j)
      + broadcastTo ⟨2, ![M, N]⟩ b hb (ix2 r j)) (Ideal.ofBits .f32 0x00000000#32) = _
  rw [matmul_plain_zero_apply, broadcastTo_1b_ab_apply, Ideal.ofBits_zero_f32]
  unfold dense
  simp only [hrow]

/-- A host program's layer — the product, a bias vector laid along axis 1 of a one-row matrix and that row down the
    rows, the maximum with a broadcast zero — read at (e, j), given the input's row `e`. -/
theorem host_layer_apply (d : DotDims ⟨2, ![M, K]⟩ ⟨2, ![K, N]⟩ ⟨2, ![M, N]⟩) (hd : d = DotDims.plain M K N)
    (prec : Option ContractPrecision) (h : FVec Ideal ⟨2, ![M, K]⟩ φ₁) (W : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (e : Fin M) (j : Fin N)
    (row : Fin K → EReal) (hrow : ∀ k, h (ix2 e k) = row k) :
    maximumf (addf (Host.dotGeneral d prec h W)
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 e j)
      = dense row (fun k j => W (ix2 k j)) (fun j => b (ix1 j)) j := by
  subst hd
  have e2 := broadcastInDim_oneRow_apply h2 (broadcastInDim ⟨2, ![1, N]⟩ ![1] h1 b) e j
  have e1 := broadcastInDim_apply ![1] h1 b (ix2 (0 : Fin 1) j) (ix1 j) (fun a => by
    match a with
    | ⟨0, _⟩ =>
      show j.val = if N = 1 then 0 else j.val
      split
      · have := j.isLt; omega
      · rfl)
  have e0 := broadcastInDim_apply ![] h0 (constant (F := Ideal) ⟨0, ![]⟩ .f32 0x00000000#32) (ix2 e j) (fun a => a.elim0)
    (fun a => a.elim0)
  show max (FloatOps.dotGeneral (DotDims.plain M K N) prec .single h W (ix2 e j)
      + broadcastInDim ⟨2, ![M, N]⟩ ![0, 1] h2 (broadcastInDim ⟨2, ![1, N]⟩ ![1] h1 b) (ix2 e j))
      (broadcastInDim ⟨2, ![M, N]⟩ ![] h0 (constant (F := Ideal) ⟨0, ![]⟩ .f32 0x00000000#32) (ix2 e j)) = _
  rw [dotGeneral_plain_apply, e2, e1, e0]
  show max _ (Ideal.ofBits .f32 0x00000000#32) = _
  rw [Ideal.ofBits_zero_f32]
  unfold dense
  simp only [hrow]

end Layers

end Cert.LibDense

end
-- ==== Proof.TileValue.lean ====
/-
  What the kernel body computes on one tile of rows, read at an entry.

  The body forms, for a tile of `M` feature rows, the gate pre-activations `x · Wᵀ + b` (an `M × 128` by `128 × 512`
  product into a zero accumulator, plus the one-row bias laid along every row), cuts the input, candidate and output
  gates out as column blocks, applies the LSTM step from the zero state, and multiplies the hidden rows by the
  `128 × 128` matrix of the graph layer. Rounding to the narrow format is the identity on the extended reals, so
  entry (p, q) of the result is `Spec.feat` of row `p` of the tile. Nothing depends on `M`.
-/
import Idealize.ShloMosaic.Lib.ValueIdx
import Idealize.ShloMosaic.Lib.ValueLayout
import Idealize.ShloMosaic.Lib.Pipeline.Value
import Idealize.ShloMosaic.PureOps.Ideal.Laws
import proofs.«113454_j27874337751637_1_alg».proof.Proof.Spec
import proofs.«113454_j27874337751637_1_alg».proof.Proof.LibDense

noncomputable section

namespace Cert.TileValue

open Idealize.ShloMosaic Idealize.ShloMosaic.ValueIdx Cert.Spec

variable {M : ℕ}

/-- A block of 128 columns of an `M × 512` matrix starting at column `o`, read at (p, k): the matrix at column `c = o + k`. -/
theorem cols_apply {α : Type} (o : ℕ) (v : (⟨2, ![M, 512]⟩ : Shape).Idx → α)
    (h : (⟨2, ![M, 512]⟩ : Shape).Slices ![0, o] ⟨2, ![M, 128]⟩) (p : Fin M) (k : Fin 128) (c : Fin 512)
    (hc : c.val = o + k.val) :
    extractStridedSlice ⟨2, ![M, 128]⟩ ![0, o] v h (ix2 p k) = v (ix2 p c) :=
  extractStridedSlice_apply ![0, o] v h (ix2 p k) (ix2 p c) (fun ax => match ax with
    | ⟨0, _⟩ => by show p.val = 0 + p.val; omega
    | ⟨1, _⟩ => hc)

/-- The tile's gate pre-activations at (p, j): row `p` of the tile against column `j` of the (transposed) input
    weights, plus entry `j` of the bias row. -/
theorem gates_apply (d1 : DotDims ⟨2, ![M, 128]⟩ ⟨2, ![128, 512]⟩ ⟨2, ![M, 512]⟩) (hd1 : d1 = DotDims.plain M 128 512)
    (hb : FTy.bits .bf16 < FTy.bits .f32)
    (hc1 : (⟨2, ![128, 512]⟩ : Shape).ShapeCasts ⟨2, ![128, 512]⟩) (hc2 : (⟨2, ![1, 512]⟩ : Shape).ShapeCasts ⟨2, ![1, 512]⟩)
    (hbr : (⟨2, ![1, 512]⟩ : Shape).Broadcasts ⟨2, ![M, 512]⟩)
    (x0 : FVec Ideal ⟨2, ![M, 128]⟩ .f32) (x1 : FVec Ideal ⟨2, ![128, 512]⟩ .f32) (x2 : FVec Ideal ⟨2, ![1, 512]⟩ .f32)
    (p : Fin M) (j : Fin 512) :
    addf (matmul d1 none (truncf .bf16 x0 hb) (truncf .bf16 (shapeCast ⟨2, ![128, 512]⟩ x1 hc1) hb)
          (constant (F := Ideal) ⟨2, ![M, 512]⟩ .f32 0x00000000#32))
        (broadcastTo ⟨2, ![M, 512]⟩ (shapeCast ⟨2, ![1, 512]⟩ x2 hc2) hbr) (ix2 p j)
      = gate (fun k => x0 (ix2 p k)) (fun j k => x1 (ix2 k j)) (fun j => x2 (ix2 (0 : Fin 1) j)) j := by
  subst hd1
  rw [shapeCast_self, shapeCast_self]
  show FloatOps.matmul (DotDims.plain M 128 512) none (truncf .bf16 x0 hb) (truncf .bf16 x1 hb)
      (constant ⟨2, ![M, 512]⟩ .f32 0x00000000#32) (ix2 p j) + broadcastTo ⟨2, ![M, 512]⟩ x2 hbr (ix2 p j) = _
  rw [LibDense.matmul_plain_zero_apply, broadcastTo_1b_ab_apply]
  rfl

/-- The rest of the body over ANY `M × 512` array `g` whose row `p` is `γ`: entry (p, q) of the product of the hidden
    rows with the (transposed) graph-layer matrix is `∑ k, hidden γ k · x3 (k, q)`. -/
theorem out_apply (d2 : DotDims ⟨2, ![M, 128]⟩ ⟨2, ![128, 128]⟩ ⟨2, ![M, 128]⟩) (hd2 : d2 = DotDims.plain M 128 128)
    (hb : FTy.bits .bf16 < FTy.bits .f32) (hc3 : (⟨2, ![128, 128]⟩ : Shape).ShapeCasts ⟨2, ![128, 128]⟩)
    (hs0 : (⟨2, ![M, 512]⟩ : Shape).Slices ![0, 0] ⟨2, ![M, 128]⟩)
    (hs256 : (⟨2, ![M, 512]⟩ : Shape).Slices ![0, 256] ⟨2, ![M, 128]⟩)
    (hs384 : (⟨2, ![M, 512]⟩ : Shape).Slices ![0, 384] ⟨2, ![M, 128]⟩)
    (g : FVec Ideal ⟨2, ![M, 512]⟩ .f32) (x3 : FVec Ideal ⟨2, ![128, 128]⟩ .f32) (p : Fin M) (q : Fin 128)
    (γ : Fin 512 → EReal) (hg : ∀ j, g (ix2 p j) = γ j) :
    matmul d2 none
        (truncf .bf16
          (mulf (logistic (extractStridedSlice ⟨2, ![M, 128]⟩ ![0, 384] g hs384))
            (tanh (mulf (logistic (extractStridedSlice ⟨2, ![M, 128]⟩ ![0, 0] g hs0))
              (tanh (extractStridedSlice ⟨2, ![M, 128]⟩ ![0, 256] g hs256))))) hb)
        (truncf .bf16 (shapeCast ⟨2, ![128, 128]⟩ x3 hc3) hb)
        (constant (F := Ideal) ⟨2, ![M, 128]⟩ .f32 0x00000000#32) (ix2 p q)
      = ∑ k : Fin 128, hidden γ k * x3 (ix2 k q) := by
  subst hd2
  rw [shapeCast_self]
  refine (LibDense.matmul_plain_zero_apply none _ _ p q).trans ?_
  refine Finset.sum_congr rfl fun k _ => ?_
  have eO := cols_apply 384 g hs384 p k (colO k) rfl
  have eI := cols_apply 0 g hs0 p k (colI k) (by show k.val = 0 + k.val; omega)
  have eG := cols_apply 256 g hs256 p k (colG k) rfl
  show Ideal.logistic (extractStridedSlice ⟨2, ![M, 128]⟩ ![0, 384] g hs384 (ix2 p k))
        * Ideal.tanh (Ideal.logistic (extractStridedSlice ⟨2, ![M, 128]⟩ ![0, 0] g hs0 (ix2 p k))
          * Ideal.tanh (extractStridedSlice ⟨2, ![M, 128]⟩ ![0, 256] g hs256 (ix2 p k)))
      * x3 (ix2 k q) = _
  rw [eO, eI, eG, hg, hg, hg]
  rfl

end Cert.TileValue

end
-- ==== Proof.KernelValue.lean ====
/-
  The kernel's output array after the run is `Spec.feats` of the arguments.

  The grid has 25 points; point `t` reads rows `2000 t … 2000 t + 1999` of the features, the whole transposed input
  weights, the one-row sum of the biases and the whole transposed graph-layer matrix, and writes rows
  `2000 t … 2000 t + 1999` of the output. The three whole-array operands are written by host operations before the
  launch: entry (k, j) of the transposed weights is entry (j, k) of the argument, entry (0, j) of the bias row is
  `b_ih j + b_hh j`. By the tile lemmas, entry (p, q) of what point `t` writes is `Spec.feat` of feature row
  `2000 t + p`, which is entry (2000 t + p, q) of `Spec.feats`; the 25 row blocks cover the array.
-/
import proofs.«113454_j27874337751637_1_alg».proof.Proof.Gen.KernelIdeal.Frame
import proofs.«113454_j27874337751637_1_alg».proof.Proof.TileValue
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Idealize.ShloMosaic.ValueIdx Cert.Spec

variable (m : (ℓ : Loc nD τ sig) → Buf (Elt Ideal) ℓ) (ρ : Dev nD → PrngReg)

theorem hz : (![0, 0] : Fin 2 → Nat) = fun _ => 0 := funext fun a => by fin_cases a <;> rfl

/-! ## The body's value at an entry -/

theorem dot1_plain : dot_S2000x128_S128x512_S2000x512_1_0_0_1_n_n = DotDims.plain 2000 128 512 := rfl
theorem dot2_plain : dot_S2000x128_S128x128_S2000x128_1_0_0_1_n_n = DotDims.plain 2000 128 128 := rfl

/-- Entry (p, q) of the body's stored value, from the four loaded blocks. -/
theorem pay_apply (x0 : Vec Ideal S2000x128 .f32) (x1 : Vec Ideal S128x512 .f32) (x2 : Vec Ideal S1x512 .f32)
    (x3 : Vec Ideal S128x128 .f32) (p : Fin 2000) (q : Fin 128) :
    k0_pay1 x0 x1 x2 x3 (ix2 p q)
      = feat (fun k => x0 (ix2 p k)) (fun j k => x1 (ix2 k j)) (fun j => x2 (ix2 (0 : Fin 1) j)) (fun q k => x3 (ix2 k q)) q := by
  unfold k0_pay1
  exact Cert.TileValue.out_apply _ dot2_plain _ _ _ _ _ _ x3 p q _
    (fun j => Cert.TileValue.gates_apply _ dot1_plain _ _ _ _ x0 x1 x2 p j)

/-! ## The blocks the body loads -/

/-- The printed index maps over the grid: the features' and the output's row block is the point, every other block index is zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The four input blocks at a point, at their literal types. -/
abbrev xblk (c : Dev nD) (t : Fin cfg0.N) : Vec Ideal S2000x128 .f32 := iblk m c 0 t
abbrev wblk (c : Dev nD) (t : Fin cfg0.N) : Vec Ideal S128x512 .f32 := iblk m c 1 t
abbrev bblk (c : Dev nD) (t : Fin cfg0.N) : Vec Ideal S1x512 .f32 := iblk m c 2 t
abbrev gblk (c : Dev nD) (t : Fin cfg0.N) : Vec Ideal S128x128 .f32 := iblk m c 3 t

/-- The arguments at their literal types. -/
abbrev argX (c : Dev nD) : FVec Ideal S50000x128 .f32 := m ((c : Thread nD τ).loc main_arg0)
abbrev argWih (c : Dev nD) : FVec Ideal S512x128 .f32 := m ((c : Thread nD τ).loc main_arg2)
abbrev argBih (c : Dev nD) : FVec Ideal S512 .f32 := m ((c : Thread nD τ).loc main_arg4)
abbrev argBhh (c : Dev nD) : FVec Ideal S512 .f32 := m ((c : Thread nD τ).loc main_arg5)
abbrev argWg (c : Dev nD) : FVec Ideal S128x128 .f32 := m ((c : Thread nD τ).loc main_arg6)

/-- The transposed input weights as the launch finds them. -/
theorem V_wihT (c : Dev nD) : (V m c main_v0 : S128x512.Idx → EReal)
    = transpose S128x512 [1, 0] (argWih m c) Facts₀.transposes_S512x128_S128x512_1_0 := by
  show StableHlo.after hostOps0 (fun b => m (c, b)) (Proc.devRef .tc main_v0) = _
  after_results

/-- The transposed graph-layer matrix as the launch finds it. -/
theorem V_wgT (c : Dev nD) : (V m c main_v1 : S128x128.Idx → EReal)
    = transpose S128x128 [1, 0] (argWg m c) Facts₀.transposes_S128x128_S128x128_1_0 := by
  show StableHlo.after hostOps0 (fun b => m (c, b)) (Proc.devRef .tc main_v1) = _
  after_results

/-- The bias row as the launch finds it: the two bias vectors added, laid out as one row. -/
theorem V_bias (c : Dev nD) : (V m c main_v3 : S1x512.Idx → EReal)
    = shapeCast S1x512 (addf (argBih m c) (argBhh m c)) Facts₀.shapeCasts_S512_S1x512 := by
  show StableHlo.after hostOps0 (fun b => m (c, b)) (Proc.devRef .tc main_v3) = _
  after_results
  rfl

/-- Row `p` of the features' block at point `t` is row `2000 t + p` of the features. -/
theorem xblk_apply (c : Dev nD) (t : Fin cfg0.N) (p : Fin 2000) (k : Fin 128) (r : Fin 50000) (hr : r.val = 2000 * t.val + p.val) :
    xblk m c t (ix2 p k) = argX m c (ix2 r k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 128 + 1 * k.val = k.val; rw [e1]; omega

/-- The weights' block is the whole transposed matrix: entry (k, j) is entry (j, k) of the argument. -/
theorem wblk_apply (c : Dev nD) (t : Fin cfg0.N) (k : Fin 128) (j : Fin 512) :
    wblk m c t (ix2 k j) = argWih m c (ix2 j k) := by
  obtain ⟨-, -, e0, e1, -⟩ := idx_facts t
  show V m c main_v0 (((cfg0.win 1).blk t).view.emb (ix2 k j)) = _
  rw [V_wihT]
  refine transpose_apply [1, 0] _ _ _ (ix2 j k) (fun b => ?_)
  match b with
  | ⟨0, _⟩ => show k.val = win0_1.index t (0 : Fin 2) * 128 + 1 * k.val; rw [e0]; omega
  | ⟨1, _⟩ => show j.val = win0_1.index t (1 : Fin 2) * 512 + 1 * j.val; rw [e1]; omega

/-- The graph-layer block is the whole transposed matrix. -/
theorem gblk_apply (c : Dev nD) (t : Fin cfg0.N) (k q : Fin 128) :
    gblk m c t (ix2 k q) = argWg m c (ix2 q k) := by
  obtain ⟨-, -, -, -, -, -, e0, e1, -⟩ := idx_facts t
  show V m c main_v1 (((cfg0.win 3).blk t).view.emb (ix2 k q)) = _
  rw [V_wgT]
  refine transpose_apply [1, 0] _ _ _ (ix2 q k) (fun b => ?_)
  match b with
  | ⟨0, _⟩ => show k.val = win0_3.index t (0 : Fin 2) * 128 + 1 * k.val; rw [e0]; omega
  | ⟨1, _⟩ => show q.val = win0_3.index t (1 : Fin 2) * 128 + 1 * q.val; rw [e1]; omega

/-- The bias block is the one row `b_ih + b_hh`. -/
theorem bblk_apply (c : Dev nD) (t : Fin cfg0.N) (j : Fin 512) :
    bblk m c t (ix2 (0 : Fin 1) j) = argBih m c (ix1 j) + argBhh m c (ix1 j) := by
  obtain ⟨-, -, -, -, e0, e1, -⟩ := idx_facts t
  show V m c main_v3 (((cfg0.win 2).blk t).view.emb (ix2 (0 : Fin 1) j)) = _
  rw [V_bias]
  refine (shapeCast_addUnit_apply (n := 1) ![512] (addf (argBih m c) (argBhh m c)) _ _).trans ?_
  have he : (fun a : Fin 1 => (((cfg0.win 2).blk t).view.emb (ix2 (0 : Fin 1) j)) a.succ) = ix1 j :=
    funext fun a => Fin.ext (by
      match a with
      | ⟨0, _⟩ => show win0_2.index t (1 : Fin 2) * 512 + 1 * j.val = j.val; rw [e1]; omega)
  rw [he]
  rfl

/-! ## What a point writes back, and the whole array -/

/-- The transformed features of the arguments. -/
abbrev featsOf (c : Dev nD) : FVec Ideal S50000x128 .f32 :=
  feats (argX m c) (argWih m c) (argBih m c) (argBhh m c) (argWg m c)

/-- What point `t` writes back is block `t` of the transformed features. -/
theorem flushed_eq (c : Dev nD) (t : Fin cfg0.N) :
    (dats m 0 c).flushed 4 t = ((cfg0.win 4).blk t).view.read (Elt Ideal) (featsOf m c) := by
  show (cfg0.win 4).cut (grid0.coords t) ((dats m 0 c).after 4 t) = _
  rw [after0_4]
  unfold out0_4
  rw [View.canon_unit_zero hz]
  simp only [View.ld_unit_zero (S := S2000x128) hz, View.ld_unit_zero (S := S128x512) hz,
    View.ld_unit_zero (S := S1x512) hz, View.ld_unit_zero (S := S128x128) hz]
  refine funext fun (y : S2000x128.Idx) => ?_
  obtain ⟨p, q, rfl⟩ : ∃ (p : Fin 2000) (q : Fin 128), y = ix2 p q := ⟨y 0, y 1, eq_ix2 y⟩
  obtain ⟨-, -, -, -, -, -, -, -, e0, e1⟩ := idx_facts t
  have hN : cfg0.N = 25 := N_0
  have ht := t.isLt
  have hp := p.isLt
  have hr : 2000 * t.val + p.val < 50000 := by omega
  have he : ((cfg0.win 4).blk t).view.emb (ix2 p q) = ix2 (⟨2000 * t.val + p.val, hr⟩ : Fin 50000) q :=
    funext fun a => Fin.ext (by
      match a with
      | ⟨0, _⟩ => show win0_4.index t (0 : Fin 2) * 2000 + 1 * p.val = 2000 * t.val + p.val; rw [e0]; omega
      | ⟨1, _⟩ => show win0_4.index t (1 : Fin 2) * 128 + 1 * q.val = q.val; rw [e1]; omega)
  show k0_pay1 (xblk m c t) (wblk m c t) (bblk m c t) (gblk m c t) (ix2 p q)
    = featsOf m c (((cfg0.win 4).blk t).view.emb (ix2 p q))
  rw [he]
  refine (pay_apply (xblk m c t) (wblk m c t) (bblk m c t) (gblk m c t) p q).trans ?_
  exact feat_congr (fun k => xblk_apply m c t p k _ rfl) (fun j k => wblk_apply m c t k j) (fun j => bblk_apply m c t j)
    (fun q k => gblk_apply m c t k q) q

/-- An index of the output array is in point `t`'s block iff each coordinate is in the block's range on its axis. -/
theorem mem_blk (t : Fin cfg0.N) (i : S50000x128.Idx) :
    i ∈ ((cfg0.win 4).blk t).view.set ↔ ∀ a : Fin 2, win0_4.index t a * S2000x128.size a ≤ (i a).val
      ∧ (i a).val < win0_4.index t a * S2000x128.size a + S2000x128.size a := by
  show i ∈ ((View.whole main_v4).slice (win0_4.rect t)).set ↔ _
  rw [View.set_slice_whole, Rect.mem_set_unit]
  exact Iff.rfl

/-- The output array after the run: row `r` lies in the block of point `r / 2000`. -/
theorem final (c : Dev nD) : (dats m 0 c).arrAt 4 cfg0.N = featsOf m c :=
  (dats m 0 c).arrAt_eq_of_cover 4 (featsOf m c) (fun t _ => flushed_eq m c t) fun i => by
    have hN : cfg0.N = 25 := N_0
    have h0 : (i 0).val < 50000 := (i 0).isLt
    have h1 : (i 1).val < 128 := (i 1).isLt
    have ht : (i 0).val / 2000 < cfg0.N := by rw [hN]; omega
    obtain ⟨-, -, -, -, -, -, -, -, e0, e1⟩ := idx_facts ⟨(i 0).val / 2000, ht⟩
    refine ⟨⟨(i 0).val / 2000, ht⟩, flush0_4 _, ?_⟩
    rw [mem_blk]
    intro a
    match a with
    | ⟨0, _⟩ =>
      show win0_4.index ⟨(i 0).val / 2000, ht⟩ (0 : Fin 2) * 2000 ≤ (i 0).val
        ∧ (i 0).val < win0_4.index ⟨(i 0).val / 2000, ht⟩ (0 : Fin 2) * 2000 + 2000
      rw [e0]; show (i 0).val / 2000 * 2000 ≤ (i 0).val ∧ (i 0).val < (i 0).val / 2000 * 2000 + 2000; omega
    | ⟨1, _⟩ =>
      show win0_4.index ⟨(i 0).val / 2000, ht⟩ (1 : Fin 2) * 128 ≤ (i 1).val
        ∧ (i 1).val < win0_4.index ⟨(i 0).val / 2000, ht⟩ (1 : Fin 2) * 128 + 128
      rw [e1]; omega

end Cert.KernelIdeal.Hand

end
-- ==== Proof.Tail.lean ====
/-
  The graph stage, which both programs run on the host, as ONE function of the transformed features.

  After the dense stage both programs do the same thing with the transformed features `mm`, the edge list `e` and the
  output bias `b`: append a self loop to every node, count in-degrees by a scatter-add of ones, take
  `deg^(-1/2)` where the degree is positive and 0 elsewhere, gather it at both ends of every edge and multiply,
  gather the source's feature row, scale it, scatter-add the rows at the targets, add the bias and take the maximum
  with zero. Every piece that does not read `mm` is a function of `e` or `b` alone and is carried under the name the
  reference's reading gives it; the stage is never opened. The reference's result is `graph` of ITS transformed
  features by unfolding five definitions; the lines of the kernel's program after the launch compute `graph` of
  whatever the launch left in the output array, the operations being the same ones in the same order.
-/
import proofs.«113454_j27874337751637_1_alg».proof.Proof.Gen.KernelIdeal.Launch
import proofs.«113454_j27874337751637_1_alg».proof.Proof.RefRead
import Idealize.ShloMosaic.Lib.StableHlo.Run

noncomputable section

namespace Cert.Tail

open Idealize.ShloMosaic Idealize.ShloMosaic.TcCoe Idealize.SL.Sem Idealize.ShloMosaic.StableHlo

variable {F : FTy → Type} [FloatOps F]

section Ref
open Cert.ReferenceIdeal Cert.ReferenceIdeal.Gen Cert.ReferenceIdeal.ReadP

/-- The graph stage of transformed features `mm`, edge list `x1` and output bias `x7`. -/
def graph (mm : (⟨S50000x128, .f32⟩ : BufTy).Contents (Elt F)) (x1 : (⟨S2x800000, .i32⟩ : BufTy).Contents (Elt F))
    (x7 : (⟨S128, .f32⟩ : BufTy).Contents (Elt F)) : (⟨S50000x128, .f32⟩ : BufTy).Contents (Elt F) :=
  maximumf
    (addf
      (Host.scatterAdd scatter_S50000x128_S850000x1_S850000x128_1_0_0_1 (val_main_v70 (F := F)) (val_main_v71 (F := F) x1)
        (mulf (Host.gather gather_S50000x128_S850000x1_S850000x128_1_0_n_n_0_1_1128 mm (val_main_v65 (F := F) x1))
          (val_main_v68 (F := F) x1)))
      (val_main_v74 (F := F) x7))
    (val_main_call1_v0 (F := F))

/-- The reference's result is the graph stage of its own transformed features. -/
theorem ref_eq (x0 : (⟨S50000x128, .f32⟩ : BufTy).Contents (Elt F)) (x1 : (⟨S2x800000, .i32⟩ : BufTy).Contents (Elt F))
    (x2 : (⟨S512x128, .f32⟩ : BufTy).Contents (Elt F)) (x4 x5 : (⟨S512, .f32⟩ : BufTy).Contents (Elt F))
    (x6 : (⟨S128x128, .f32⟩ : BufTy).Contents (Elt F)) (x7 : (⟨S128, .f32⟩ : BufTy).Contents (Elt F)) :
    val_main_v76 (F := F) x0 x1 x2 x4 x5 x6 x7 = graph (val_main_v59 (F := F) x0 x2 x4 x5 x6) x1 x7 := by
  unfold val_main_v76 val_main_v75 val_main_v72 val_main_v69 val_main_v66 graph
  rfl

end Ref

section Kernel
open Cert.KernelIdeal Cert.KernelIdeal.Gen

set_option maxRecDepth 8192 in
set_option maxHeartbeats 4000000 in
/-- The lines after the launch, from ANY buffer contents `U`: the result buffer ends at the graph stage of what `U` holds
    in the launch's output array, the edge list and the output bias. -/
theorem kernel_eq (U : Valuation τ sig (Elt F)) :
    StableHlo.after (List.flatten [hostOps1, hostOps1_1, hostOps1_2, hostOps1_3]) U (Proc.devRef .tc main_v51)
      = graph (F := F) (U (Proc.devRef .tc main_v4)) (U (Proc.devRef .tc main_arg1)) (U (Proc.devRef .tc main_arg7)) := by
  simp only [hostOps1, hostOps1_1, hostOps1_2, hostOps1_3, List.flatten_cons, List.flatten_nil, List.append_nil,
    List.cons_append, List.nil_append]
  after_results_simp
  (try simp only [TRef.ofBuf, TRef.toBuf, cast_eq])
  unfold graph
  rfl

end Kernel

end Cert.Tail

end
-- ==== Proof.RefDense.lean ====
/-
  The reference's dense stage is `Spec.feats`.

  The reference forms `x · w_ihᵀ` for all 50000 rows at once, adds the two bias vectors one after the other, cuts the
  gates out as column blocks, spells the logistic function as `1 / (1 + e^(−z))`, and multiplies the hidden rows by
  `w_gcnᵀ`. Read at an entry, the pre-activation is `(∑ k, x k · W j k + b j) + b' j`; addition on the extended reals is
  associative, so this is `Spec.gate` at the bias `b + b'`. The logistic function on the extended reals is by definition
  the quotient the reference spells, and the pattern of 1.0 denotes one.
-/
import proofs.«113454_j27874337751637_1_alg».proof.Proof.RefRead
import proofs.«113454_j27874337751637_1_alg».proof.Proof.Spec

noncomputable section

namespace Cert.ReferenceIdeal.RefDense

open Cert.ReferenceIdeal Cert.ReferenceIdeal.ReadP Idealize.ShloMosaic Idealize.ShloMosaic.ValueIdx Cert.Spec

variable (x0 : (⟨S50000x128, .f32⟩ : BufTy).Contents (Elt Ideal)) (x2 : (⟨S512x128, .f32⟩ : BufTy).Contents (Elt Ideal))
  (x4 x5 : (⟨S512, .f32⟩ : BufTy).Contents (Elt Ideal)) (x6 : (⟨S128x128, .f32⟩ : BufTy).Contents (Elt Ideal))

/-- Pre-activation `j` of node `r`: the two biases added in turn are their sum added once. -/
theorem gates_apply (r : Fin 50000) (j : Fin 512) :
    val_main_v7 (F := Ideal) x0 x2 x4 x5 (ix2 r j)
      = gate (fun k => x0 (ix2 r k)) (fun j k => x2 (ix2 j k)) (fun j => x4 (ix1 j) + x5 (ix1 j)) j := by
  have e1 : ∀ k : Fin 128, lidx_main_v1 (ix2 r j) k = ix2 r k := fun k =>
    funext fun a => match a with | ⟨0, _⟩ => rfl | ⟨1, _⟩ => rfl
  have e2 : ∀ k : Fin 128, idx_main_v0 (ridx_main_v1 (ix2 r j) k) = ix2 j k := fun k =>
    funext fun a => match a with | ⟨0, _⟩ => rfl | ⟨1, _⟩ => rfl
  have e3 : idx_main_v2 (idx_main_v3 (ix2 r j)) = ix1 j := funext fun a => match a with | ⟨0, _⟩ => rfl
  have e4 : idx_main_v5 (idx_main_v6 (ix2 r j)) = ix1 j := funext fun a => match a with | ⟨0, _⟩ => rfl
  rw [val_main_v7_apply, val_main_v4_apply, val_main_v1_apply, val_main_v3_apply, val_main_v2_apply, val_main_v6_apply,
    val_main_v5_apply, e3, e4]
  simp only [val_main_v0_apply, e1, e2]
  show (∑ k : Fin 128, x0 (ix2 r k) * x2 (ix2 j k)) + x4 (ix1 j) + x5 (ix1 j) = _
  unfold gate
  exact add_assoc _ _ _

/-- Hidden state `k` of node `r`. -/
theorem hidden_apply (r : Fin 50000) (k : Fin 128) :
    val_main_v27 (F := Ideal) x0 x2 x4 x5 (ix2 r k)
      = hidden (gate (fun k => x0 (ix2 r k)) (fun j k => x2 (ix2 j k)) (fun j => x4 (ix1 j) + x5 (ix1 j))) k := by
  have i8 : idx_main_v8 (ix2 r k) = ix2 r (colI k) := funext fun a => match a with | ⟨0, _⟩ => rfl | ⟨1, _⟩ => rfl
  have i10 : idx_main_v10 (ix2 r k) = ix2 r (colG k) := funext fun a => match a with | ⟨0, _⟩ => rfl | ⟨1, _⟩ => rfl
  have i11 : idx_main_v11 (ix2 r k) = ix2 r (colO k) := funext fun a => match a with | ⟨0, _⟩ => rfl | ⟨1, _⟩ => rfl
  simp only [val_main_v27_apply, val_main_v25_apply, val_main_v24_apply, val_main_cst_2_apply, val_main_v23_apply,
    val_main_v22_apply, val_main_cst_1_apply, val_main_v21_apply, val_main_v20_apply, val_main_v11_apply,
    val_main_v26_apply, val_main_v19_apply, val_main_v17_apply, val_main_v16_apply, val_main_cst_0_apply,
    val_main_v15_apply, val_main_v14_apply, val_main_cst_apply, val_main_v13_apply, val_main_v12_apply,
    val_main_v8_apply, val_main_v18_apply, val_main_v10_apply, i8, i10, i11, gates_apply,
    Ideal.mulf_def, Ideal.hostDivf_def, Ideal.ofBits_def, Ideal.addf_def, Ideal.hostUnary_exp_def, Ideal.hostNegf_def,
    Ideal.negf_def, Ideal.hostUnary_tanh_def, ofBits_one_f32]
  rfl

/-- The reference's transformed features are `Spec.feats` of the arguments. -/
theorem feats_eq : val_main_v59 (F := Ideal) x0 x2 x4 x5 x6 = feats x0 x2 x4 x5 x6 := by
  funext i
  obtain ⟨r, q, rfl⟩ : ∃ (r : Fin 50000) (q : Fin 128), i = ix2 r q := ⟨i 0, i 1, eq_ix2 i⟩
  have el : ∀ k : Fin 128, lidx_main_v59 (ix2 r q) k = ix2 r k := fun k =>
    funext fun a => match a with | ⟨0, _⟩ => rfl | ⟨1, _⟩ => rfl
  have er : ∀ k : Fin 128, idx_main_v58 (ridx_main_v59 (ix2 r q) k) = ix2 q k := fun k =>
    funext fun a => match a with | ⟨0, _⟩ => rfl | ⟨1, _⟩ => rfl
  rw [val_main_v59_apply, feats_apply]
  unfold feat
  refine Finset.sum_congr rfl fun k _ => ?_
  rw [el, hidden_apply, val_main_v58_apply, er]

end Cert.ReferenceIdeal.RefDense

end
-- ==== Proof.Claims.lean ====
/-
  The two runs side by side.

  The kernel's program ends with its result buffer at the graph stage of the launch's output array, which is
  `Spec.feats` of the arguments (the 25 row blocks cover it); the reference ends with its result at the graph stage
  of its own transformed features, which are `Spec.feats` of ITS arguments. From memories that agree on the
  arguments the two results are the same term.
-/
import proofs.«113454_j27874337751637_1_alg».proof.Defs
import proofs.«113454_j27874337751637_1_alg».proof.Proof.KernelValue
import proofs.«113454_j27874337751637_1_alg».proof.Proof.Tail
import proofs.«113454_j27874337751637_1_alg».proof.Proof.RefDense
import proofs.«113454_j27874337751637_1_alg».proof.Proof.Gen.Pre_finite_inputs

noncomputable section

open Idealize.ShloMosaic Idealize.ShloMosaic.TcCoe Idealize.SL.Sem Idealize.ShloMosaic.StableHlo
open Idealize.ShloMosaic.Pipeline (Dat)

namespace Cert.KernelIdeal.Hand

open Cert.KernelIdeal Cert.KernelIdeal.Gen Idealize.ShloMosaic.ValueIdx Cert.Spec

variable (m : (ℓ : Loc nD τ sig) → Buf (Elt Ideal) ℓ) (ρ : Dev nD → PrngReg)

/-- What the lines after the launch leave in the result buffer: the graph stage of the transformed features, the edge
    list and the output bias as launched. -/
theorem tail_eq (c : Dev nD) :
    Pipeline.afterTail₀ cfgs (dats m) 0 (V0 m) [hostOps1, hostOps1_1, hostOps1_2, hostOps1_3] c main_v51
      = Cert.Tail.graph (F := Ideal) (featsOf m c) (m ((c : Thread nD τ).loc main_arg1)) (m ((c : Thread nD τ).loc main_arg7)) := by
  unfold Pipeline.afterTail₀
  refine (Cert.Tail.kernel_eq _).trans ?_
  have h4 := (Pipeline.withArrays_arr spec0 launch0.win.arr_inj c (V0 m c) (fun w => (dats m 0 c).arrAt w cfg0.N) 4).trans (final m c)
  have h1 := (Pipeline.withArrays_of_ne spec0 c (V0 m c) (fun w => (dats m 0 c).arrAt w cfg0.N) main_arg1
    (by exact (by decide : ∀ w, Pipeline.arrRef spec0 w ≠ main_arg1))).trans (V_main_arg1 m c)
  have h7 := (Pipeline.withArrays_of_ne spec0 c (V0 m c) (fun w => (dats m 0 c).arrAt w cfg0.N) main_arg7
    (by exact (by decide : ∀ w, Pipeline.arrRef spec0 w ≠ main_arg7))).trans (V_main_arg7 m c)
  exact congr (congr (congrArg (Cert.Tail.graph (F := Ideal)) h4) h1) h7

/-- The kernel's run, read: the result at the graph stage of `Spec.feats` of the arguments, the arguments unchanged. -/
theorem run : θ_run defs (onTc (τ := τ) (main (F := Ideal))) ⟨m, fun _ => 0, ρ⟩ (fun r => ∀ c : Dev nD,
      r.2.mem ((c.tc : Thread nD τ).loc main_v51)
        = Cert.Tail.graph (F := Ideal) (featsOf m c) (m ((c : Thread nD τ).loc main_arg1)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v51 (Pipeline.mem_restRefs_of main_v51 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.Hand

namespace Cert.Proof.Claims

/-- The reference's frame is its run with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- Both programs end at the graph stage of `Spec.feats` of arguments that agree. -/
theorem algebraic : Cert.algebraic_KernelIdeal_ReferenceIdeal := by
  intro m ρ m' ρ' _ hagree
  refine ⟨fun c => Cert.Tail.graph (F := Ideal) (Cert.KernelIdeal.Hand.featsOf m c)
      (m ((c : Thread Cert.KernelIdeal.nD Cert.KernelIdeal.τ).loc Cert.KernelIdeal.main_arg1))
      (m ((c : Thread Cert.KernelIdeal.nD Cert.KernelIdeal.τ).loc Cert.KernelIdeal.main_arg7)),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7⟩ := hagree c
  rw [Cert.ReferenceIdeal.ReadP.val_main_v76_eq, Cert.Tail.ref_eq, Cert.ReferenceIdeal.RefDense.feats_eq,
    a0, a1, a2, a4, a5, a6, a7]

end Cert.Proof.Claims

end
-- ==== Proof.lean ====
/- One LSTM step from the zero state, a linear map and a graph-convolution layer: a tiled kernel for the dense part
   against the same computation written with whole-array operations.

   Both programs compute, for each of 50000 nodes with feature row `x`, the gate pre-activations
   `g j = ∑ k, x k · w_ih j k + b_ih j + b_hh j`, the hidden state `σ(g (384+k)) · tanh(σ(g k) · tanh(g (256+k)))` and the
   transformed feature `∑ k, hidden k · w_gcn q k`; then both aggregate the transformed features over the edges with
   self loops and symmetric degree normalisation, add the output bias and clamp at zero. The kernel adds the two
   biases first and the reference one after the other: addition on the extended reals is associative. The kernel's
   logistic operation and the reference's `1 / (1 + e^(−z))` are one function there, and rounding the matrix
   products' operands to the narrow format is the identity. The aggregation is the same host operations on both
   sides and is carried as one function of the transformed features (Proof/Tail.lean); the transformed features are
   `Spec.feats` of the arguments on both sides (Proof/KernelValue.lean over the tile lemmas of Proof/TileValue.lean;
   Proof/RefDense.lean). The kernel programs' frames are their generated frame certificates, the reference's frame is
   its run with the result dropped, and the idealization rewrote nothing. -/
import proofs.«113454_j27874337751637_1_alg».proof.Defs
import proofs.«113454_j27874337751637_1_alg».proof.Proof.Gen.Kernel
import proofs.«113454_j27874337751637_1_alg».proof.Proof.Gen.Kernel.Skeleton
import proofs.«113454_j27874337751637_1_alg».proof.Proof.Gen.Kernel.Launch
import proofs.«113454_j27874337751637_1_alg».proof.Proof.Gen.Kernel.Points
import proofs.«113454_j27874337751637_1_alg».proof.Proof.Gen.Kernel.Frame
import proofs.«113454_j27874337751637_1_alg».proof.Proof.Gen.KernelIdeal
import proofs.«113454_j27874337751637_1_alg».proof.Proof.Gen.KernelIdeal.Skeleton
import proofs.«113454_j27874337751637_1_alg».proof.Proof.Gen.KernelIdeal.Launch
import proofs.«113454_j27874337751637_1_alg».proof.Proof.Gen.KernelIdeal.Points
import proofs.«113454_j27874337751637_1_alg».proof.Proof.Gen.KernelIdeal.Frame
import proofs.«113454_j27874337751637_1_alg».proof.Proof.Gen.ReferenceIdeal
import proofs.«113454_j27874337751637_1_alg».proof.Proof.RefRun
import proofs.«113454_j27874337751637_1_alg».proof.Proof.RefRead
import proofs.«113454_j27874337751637_1_alg».proof.Proof.Gen.Pre_finite_inputs
import proofs.«113454_j27874337751637_1_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, Claims.frame_ref, trivial,
    Claims.algebraic⟩

end Cert.Proof

end
